-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S2000x256 : Shape := ⟨2, ![2000, 256]⟩
abbrev S2000x128 : Shape := ⟨2, ![2000, 128]⟩
abbrev S1650000x128 : Shape := ⟨2, ![1650000, 128]⟩
abbrev S1x128 : Shape := ⟨2, ![1, 128]⟩
abbrev S50000x64 : Shape := ⟨2, ![50000, 64]⟩
abbrev S2000x64 : Shape := ⟨2, ![2000, 64]⟩
abbrev S1650000x64 : Shape := ⟨2, ![1650000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x64, .f32⟩
  | .hbm, ⟨65, _⟩ => ⟨S_, .i32⟩
  | .hbm, ⟨66, _⟩ => ⟨S1650000, .i32⟩
  | .hbm, ⟨67, _⟩ => ⟨S1650000, .i1⟩
  | .hbm, ⟨68, _⟩ => ⟨S_, .i32⟩
  | .hbm, ⟨69, _⟩ => ⟨S1650000, .i32⟩
  | .hbm, ⟨70, _⟩ => ⟨S1650000, .i32⟩
  | .hbm, ⟨71, _⟩ => ⟨S1650000, .i32⟩
  | .hbm, ⟨72, _⟩ => ⟨S1650000x1, .i32⟩
  | .hbm, ⟨73, _⟩ => ⟨S1650000x64, .f32⟩
  | .hbm, ⟨74, _⟩ => ⟨S1650000x1, .f32⟩
  | .hbm, ⟨75, _⟩ => ⟨S1650000x64, .f32⟩
  | .hbm, ⟨76, _⟩ => ⟨S1650000x64, .f32⟩
  | .hbm, ⟨77, _⟩ => ⟨S_, .f32⟩
  | .hbm, ⟨78, _⟩ => ⟨S50000x64, .f32⟩
  | .hbm, ⟨79, _⟩ => ⟨S1650000x1, .i32⟩
  | .hbm, ⟨80, _⟩ => ⟨S50000x64, .f32⟩
  | .hbm, ⟨81, _⟩ => ⟨S1x64, .f32⟩
  | .hbm, ⟨82, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x256_S256x128_S2000x128_1_0_0_1_n_n_wf : DotDims.WF S2000x256 S256x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x64_S2000x64_1_0_0_1_n_n_wf : DotDims.WF S2000x128 S128x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x1, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x64, .f32⟩
  | .hbm, ⟨103, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.Spec.lean ====
/-
  The two-layer graph convolution as ONE function of the six argument arrays, stage by stage.

  Edges: the 1,600,000 given edges followed by one self-loop per node, so 1,650,000 in all; `src e` and `dst e`
  are their end points. `deg e` counts, for each node, the edges that arrive at it; `dinv e` is `deg^(-1/2)` where
  `deg > 0` and `0` elsewhere; `norm e` is `dinv (src) * dinv (dst)` edge by edge (an index is first wrapped: a
  negative one has 50000 added).

  One propagation step (`prop128` at width 128, `prop64` at width 64) takes a node array `h`, reads row `src` of it
  for every edge, scales it by the edge's `norm`, and adds the result into row `dst` of a zero array.

  The three dense stages: `dense1 x w = x · w`; `dense2 a b w = max (a + b, 0) · w` with `b` a row added to every
  row of `a`; `logsm a b`, the row-wise log-softmax of `z = a + b`: `(z - max z) - log (sum (exp (z - max z)))`,
  the maximum and the sum over each row.

  `gcn` composes them: `logsm (prop64 (dense2 (prop128 (dense1 x w1)) b1 w2)) b2`.
  Every definition is generic in the float family, so the same text is read at the extended reals.
-/
import proofs.«172581_j58557584114028_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- The source node of every edge: row 0 of the edge array, then the nodes themselves (the self-loops). -/
def src (e : (⟨S2x1600000, .i32⟩ : BufTy).Contents (Elt F)) : (⟨S1650000, .i32⟩ : BufTy).Contents (Elt F) :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- The target node of every edge: row 1 of the edge array, then the nodes themselves. -/
def dst (e : (⟨S2x1600000, .i32⟩ : BufTy).Contents (Elt F)) : (⟨S1650000, .i32⟩ : BufTy).Contents (Elt F) :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- The in-degree of every node: a one added at `dst` for every edge. -/
def deg (e : (⟨S2x1600000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 (dst e)) (broadcastInDim S1650000 ![] bcast_S_S1650000 (constant S_ .f32 0x3F800000#32))

/-- `deg^(-1/2)` where the degree is positive, `0` elsewhere. -/
def dinv (e : (⟨S2x1600000, .i32⟩ : BufTy).Contents (Elt F)) : (⟨S50000, .f32⟩ : BufTy).Contents (Elt F) :=
  select (cmpf (F := F) .ogt (deg e) (broadcastInDim S50000 ![] bcast_S_S50000 (constant S_ .f32 0x00000000#32))) (Host.rsqrt (deg e)) (broadcastInDim S50000 ![] bcast_S_S50000 (id (constant S_ .f32 0x00000000#32)))

/-- An index array made ready for a row lookup: a negative index has 50000 added; one index per row. -/
def wrap (s : (⟨S1650000, .i32⟩ : BufTy).Contents (Elt F)) : (⟨S1650000x1, .i32⟩ : BufTy).Contents (Elt F) :=
  broadcastInDim S1650000x1 ![0] bcast_S1650000_S1650000x1_0 (select (cmpi .slt s (broadcastInDim S1650000 ![] bcast_S_S1650000 (constantI S_ 32 0#32))) (addi s (broadcastInDim S1650000 ![] bcast_S_S1650000 (constantI S_ 32 50000#32))) s)

/-- The symmetric normalisation of every edge: `dinv` at its source times `dinv` at its target. -/
def norm (e : (⟨S2x1600000, .i32⟩ : BufTy).Contents (Elt F)) : (⟨S1650000, .f32⟩ : BufTy).Contents (Elt F) :=
  mulf (Host.gather gather_S50000_S1650000x1_S1650000_n_0_n_n_0_1_1 (dinv e) (wrap (src e))) (Host.gather gather_S50000_S1650000x1_S1650000_n_0_n_n_0_1_1 (dinv e) (wrap (dst e)))

/-- One propagation step at width 128: row `s` of `h` for every edge, times the edge's `n`, added into row `d`. -/
def prop128 (h : (⟨S50000x128, .f32⟩ : BufTy).Contents (Elt F)) (s d : (⟨S1650000, .i32⟩ : BufTy).Contents (Elt F))
    (n : (⟨S1650000, .f32⟩ : BufTy).Contents (Elt F)) : (⟨S50000x128, .f32⟩ : BufTy).Contents (Elt F) :=
  Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 d) (mulf (Host.gather gather_S50000x128_S1650000x1_S1650000x128_1_0_n_n_0_1_1128 h (wrap s)) (broadcastInDim S1650000x128 ![0, 1] bcast_S1650000x1_S1650000x128_0_1 (broadcastInDim S1650000x1 ![0] bcast_S1650000_S1650000x1_0 n)))

/-- One propagation step at width 64. -/
def prop64 (h : (⟨S50000x64, .f32⟩ : BufTy).Contents (Elt F)) (s d : (⟨S1650000, .i32⟩ : BufTy).Contents (Elt F))
    (n : (⟨S1650000, .f32⟩ : BufTy).Contents (Elt F)) : (⟨S50000x64, .f32⟩ : BufTy).Contents (Elt F) :=
  Host.scatterAdd scatter_S50000x64_S1650000x1_S1650000x64_1_0_0_1 (broadcastInDim S50000x64 ![] bcast_S_S50000x64 (constant S_ .f32 0x00000000#32)) (broadcastInDim S1650000x1 ![0] bcast_S1650000_S1650000x1_0 d) (mulf (Host.gather gather_S50000x64_S1650000x1_S1650000x64_1_0_n_n_0_1_164 h (wrap s)) (broadcastInDim S1650000x64 ![0, 1] bcast_S1650000x1_S1650000x64_0_1 (broadcastInDim S1650000x1 ![0] bcast_S1650000_S1650000x1_0 n)))

/-- The first dense stage: the matrix product `x · w`. -/
def dense1 (x : (⟨S50000x256, .f32⟩ : BufTy).Contents (Elt F)) (w : (⟨S256x128, .f32⟩ : BufTy).Contents (Elt F)) :
    (⟨S50000x128, .f32⟩ : BufTy).Contents (Elt F) :=
  Host.dotGeneral dot_S50000x256_S256x128_S50000x128_1_0_0_1_n_n none x w

/-- A vector of 128 as one row. -/
def row128 (b : (⟨S128, .f32⟩ : BufTy).Contents (Elt F)) : (⟨S1x128, .f32⟩ : BufTy).Contents (Elt F) :=
  broadcastInDim S1x128 ![1] bcast_S128_S1x128_1 b

/-- A vector of 64 as one row. -/
def row64 (b : (⟨S64, .f32⟩ : BufTy).Contents (Elt F)) : (⟨S1x64, .f32⟩ : BufTy).Contents (Elt F) :=
  broadcastInDim S1x64 ![1] bcast_S64_S1x64_1 b

/-- The second dense stage: the row `b` added to every row of `a`, the negative entries set to `0`, times `w`. -/
def dense2 (a : (⟨S50000x128, .f32⟩ : BufTy).Contents (Elt F)) (b : (⟨S1x128, .f32⟩ : BufTy).Contents (Elt F))
    (w : (⟨S128x64, .f32⟩ : BufTy).Contents (Elt F)) : (⟨S50000x64, .f32⟩ : BufTy).Contents (Elt F) :=
  Host.dotGeneral dot_S50000x128_S128x64_S50000x64_1_0_0_1_n_n none (maximumf (addf a (broadcastInDim S50000x128 ![0, 1] bcast_S1x128_S50000x128_0_1 b)) (broadcastInDim S50000x128 ![] bcast_S_S50000x128 (constant S_ .f32 0x00000000#32))) w

/-- The largest entry of every row of `z` (the maximum taken from `-∞`, and once more against `-∞`). -/
def rowMax (z : (⟨S50000x64, .f32⟩ : BufTy).Contents (Elt F)) : (⟨S50000, .f32⟩ : BufTy).Contents (Elt F) :=
  maximumf (broadcastInDim S50000 ![] bcast_S_S50000 (constant S_ .f32 0xFF800000#32)) (Host.reduce FloatOps.maximumf z (constant S_ .f32 0xFF800000#32) reducesTo_S50000x64_S50000_d1 h_S_)

/-- `z` with every row's largest entry subtracted from the row. -/
def shifted (z : (⟨S50000x64, .f32⟩ : BufTy).Contents (Elt F)) : (⟨S50000x64, .f32⟩ : BufTy).Contents (Elt F) :=
  subf z (broadcastInDim S50000x64 ![0, 1] bcast_S50000x1_S50000x64_0_1 (broadcastInDim S50000x1 ![0] bcast_S50000_S50000x1_0 (rowMax z)))

/-- The row-wise log-softmax of an array `z`: `(z - max z) - log (sum (exp (z - max z)))`. -/
def logsmOf (z : (⟨S50000x64, .f32⟩ : BufTy).Contents (Elt F)) : (⟨S50000x64, .f32⟩ : BufTy).Contents (Elt F) :=
  subf (shifted z) (broadcastInDim S50000x64 ![0, 1] bcast_S50000x1_S50000x64_0_1 (Host.log (broadcastInDim S50000x1 ![0] bcast_S50000_S50000x1_0 (Host.reduceAdd (Host.exp (shifted z)) (constant S_ .f32 0x00000000#32) reducesTo_S50000x64_S50000_d1 h_S_))))

/-- The last stage: the row `b` added to every row of `a`, then the row-wise log-softmax. -/
def logsm (a : (⟨S50000x64, .f32⟩ : BufTy).Contents (Elt F)) (b : (⟨S1x64, .f32⟩ : BufTy).Contents (Elt F)) :
    (⟨S50000x64, .f32⟩ : BufTy).Contents (Elt F) :=
  logsmOf (addf a (broadcastInDim S50000x64 ![0, 1] bcast_S1x64_S50000x64_0_1 b))

/-- The whole network as one function of the six arguments. -/
def gcn (x : (⟨S50000x256, .f32⟩ : BufTy).Contents (Elt F)) (e : (⟨S2x1600000, .i32⟩ : BufTy).Contents (Elt F))
    (w1 : (⟨S256x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S50000x64, .f32⟩ : BufTy).Contents (Elt F) :=
  logsm (prop64 (dense2 (prop128 (dense1 x w1) (src e) (dst e) (norm e)) (row128 b1) w2) (src e) (dst e) (norm e)) (row64 b2)

end Cert.Gcn

end
-- ==== Proof.HostChain.lean ====
/-
  The kernel program's arrays, boundary by boundary, as the specification's functions of the launch contents.

  Before region 0 the host operations compute the edges' end points `src`, `dst` and the normalisation `norm` from
  the edge array alone; no later operation or region writes them, so every later boundary still holds them.
  The host operations after region 0 make one propagation step at width 128 over what it left and lay the first
  bias out as a row; those after region 1 one propagation step at width 64 and the second bias as a row.
  A vector reshaped to one row is the vector broadcast along a new leading axis: both read entry `j` at `(0, j)`.
-/
import proofs.«172581_j58557584114028_1_alg».proof.Proof.Gen.KernelIdeal.Frame
import proofs.«172581_j58557584114028_1_alg».proof.Proof.Spec
import Idealize.ShloMosaic.Lib.Pipeline.Value
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-! ## A vector as one row: the reshape and the broadcast along a new leading axis agree -/

section Rows
variable {α : Type}

/-- `[n]` reshaped to `[1, n]` is `[n]` broadcast to `[1, n]` along axis 1: entry `(0, j)` of both is entry `j`. -/
theorem row_eq {n : Nat} (b : (⟨1, ![n]⟩ : Shape).Idx → α) (hc : (⟨1, ![n]⟩ : Shape).ShapeCasts ⟨2, ![1, n]⟩)
    (hb : (⟨1, ![n]⟩ : Shape).BroadcastsInDim ⟨2, ![1, n]⟩ (![1] : Fin 1 → Fin 2)) (hn : n ≠ 1) :
    shapeCast (⟨2, ![1, n]⟩ : Shape) b hc = broadcastInDim (⟨2, ![1, n]⟩ : Shape) ![1] hb b := by
  funext i
  have h0 : (i 0).val < 1 := (i 0).isLt
  have h1 : (i 1).val < n := (i 1).isLt
  let k : (⟨1, ![n]⟩ : Shape).Idx := fun a => match a with
    | ⟨0, _⟩ => ⟨(i 1).val, h1⟩
  have hz : (i 0).val = 0 := by omega
  rw [shapeCast_apply b hc i k (by
        rw [Shape.rowMajor_val_one, Shape.rowMajor_val_two]
        show (i 1).val = (i 0).val * n + (i 1).val
        rw [hz, Nat.zero_mul, Nat.zero_add])]
  exact (broadcastInDim_apply _ hb b i k (fun a => match a with
    | ⟨0, _⟩ => by show (i 1).val = if n = 1 then 0 else (i 1).val; rw [if_neg hn])).symm

end Rows

variable {F : FTy → Type} [FloatOps F]
variable (m : (ℓ : Loc nD τ sig) → Buf (Elt F) ℓ) (ρ : Dev nD → PrngReg)

/-! ## Region 0's entry: the edges' end points and normalisation, and the arguments as launched -/

theorem W3_src (c : Dev nD) :
    W3 m ρ c (Proc.devRef .tc main_v5) = Cert.Gcn.src (F := F) (m ((c : Thread nD τ).loc main_arg1)) := by
  show StableHlo.after hostOps0_2 (StableHlo.after hostOps0_1 (StableHlo.after hostOps0 (W0 m ρ c))) (Proc.devRef .tc main_v5) = _
  dsimp only [hostOps0, hostOps0_1, hostOps0_2]
  after_results
  rfl

theorem W3_dst (c : Dev nD) :
    W3 m ρ c (Proc.devRef .tc main_v6) = Cert.Gcn.dst (F := F) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  rfl

set_option maxHeartbeats 4000000 in
theorem W3_norm (c : Dev nD) :
    W3 m ρ c (Proc.devRef .tc main_v29) = Cert.Gcn.norm (F := F) (m ((c : Thread nD τ).loc main_arg1)) := by
  show StableHlo.after hostOps0_2 (StableHlo.after hostOps0_1 (StableHlo.after hostOps0 (W0 m ρ c))) (Proc.devRef .tc main_v29) = _
  dsimp only [hostOps0, hostOps0_1, hostOps0_2]
  after_results
  rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results

/-! ## Region 1's entry: one propagation step at width 128 over what region 0 left, and the first bias as a row -/

theorem W5_prop (c : Dev nD) :
    W5 m ρ c (Proc.devRef .tc main_v43) = Cert.Gcn.prop128 (F := F) (W4 m ρ c (Proc.devRef .tc main_v30))
      (Cert.Gcn.src (m ((c : Thread nD τ).loc main_arg1))) (Cert.Gcn.dst (m ((c : Thread nD τ).loc main_arg1)))
      (Cert.Gcn.norm (m ((c : Thread nD τ).loc main_arg1))) := by
  rw [← W3_src m ρ c, ← W3_dst m ρ c, ← W3_norm m ρ c,
    ← W4_of_ne m ρ c main_v5 (by decide), ← W4_of_ne m ρ c main_v6 (by decide), ← W4_of_ne m ρ c main_v29 (by decide)]
  show StableHlo.after hostOps1 (W4 m ρ c) (Proc.devRef .tc main_v43) = _
  dsimp only [hostOps1]
  after_results
  rfl

theorem W5_row (c : Dev nD) :
    W5 m ρ c (Proc.devRef .tc main_v44) = Cert.Gcn.row128 (F := F) (m ((c : Thread nD τ).loc main_arg3)) := by
  rw [← W3_arg3 m ρ c, ← W4_of_ne m ρ c main_arg3 (by decide)]
  show StableHlo.after hostOps1 (W4 m ρ c) (Proc.devRef .tc main_v44) = _
  dsimp only [hostOps1]
  after_results
  exact row_eq (n := 128) _ shapeCasts_S128_S1x128 Cert.ReferenceIdeal.Gen.bcast_S128_S1x128_1 (by decide)

theorem W5_arg4 (c : Dev nD) : W5 m ρ c (Proc.devRef .tc main_arg4) = m ((c : Thread nD τ).loc main_arg4) := by
  rw [← W3_arg4 m ρ c, ← W4_of_ne m ρ c main_arg4 (by decide)]
  show StableHlo.after hostOps1 (W4 m ρ c) (Proc.devRef .tc main_arg4) = _
  dsimp only [hostOps1]
  after_results

/-! ## Region 2's entry: one propagation step at width 64 over what region 1 left, and the second bias as a row -/

/-- A buffer that neither region 1 nor the host operations before it write is, at region 1's exit, what region 0's
    exit held. -/
theorem W6_src (c : Dev nD) :
    W6 m ρ c (Proc.devRef .tc main_v5) = Cert.Gcn.src (F := F) (m ((c : Thread nD τ).loc main_arg1)) := by
  rw [W6_of_ne m ρ c main_v5 (by decide), ← W3_src m ρ c, ← W4_of_ne m ρ c main_v5 (by decide)]
  show StableHlo.after hostOps1 (W4 m ρ c) (Proc.devRef .tc main_v5) = _
  dsimp only [hostOps1]
  after_results

theorem W6_dst (c : Dev nD) :
    W6 m ρ c (Proc.devRef .tc main_v6) = Cert.Gcn.dst (F := F) (m ((c : Thread nD τ).loc main_arg1)) := by
  rw [W6_of_ne m ρ c main_v6 (by decide), ← W3_dst m ρ c, ← W4_of_ne m ρ c main_v6 (by decide)]
  show StableHlo.after hostOps1 (W4 m ρ c) (Proc.devRef .tc main_v6) = _
  dsimp only [hostOps1]
  after_results

theorem W6_norm (c : Dev nD) :
    W6 m ρ c (Proc.devRef .tc main_v29) = Cert.Gcn.norm (F := F) (m ((c : Thread nD τ).loc main_arg1)) := by
  rw [W6_of_ne m ρ c main_v29 (by decide), ← W3_norm m ρ c, ← W4_of_ne m ρ c main_v29 (by decide)]
  show StableHlo.after hostOps1 (W4 m ρ c) (Proc.devRef .tc main_v29) = _
  dsimp only [hostOps1]
  after_results

theorem W6_arg5 (c : Dev nD) : W6 m ρ c (Proc.devRef .tc main_arg5) = m ((c : Thread nD τ).loc main_arg5) := by
  rw [W6_of_ne m ρ c main_arg5 (by decide), ← W3_arg5 m ρ c, ← W4_of_ne m ρ c main_arg5 (by decide)]
  show StableHlo.after hostOps1 (W4 m ρ c) (Proc.devRef .tc main_arg5) = _
  dsimp only [hostOps1]
  after_results

theorem W7_prop (c : Dev nD) :
    W7 m ρ c (Proc.devRef .tc main_v58) = Cert.Gcn.prop64 (F := F) (W6 m ρ c (Proc.devRef .tc main_v45))
      (Cert.Gcn.src (m ((c : Thread nD τ).loc main_arg1))) (Cert.Gcn.dst (m ((c : Thread nD τ).loc main_arg1)))
      (Cert.Gcn.norm (m ((c : Thread nD τ).loc main_arg1))) := by
  rw [← W6_src m ρ c, ← W6_dst m ρ c, ← W6_norm m ρ c]
  show StableHlo.after hostOps2 (W6 m ρ c) (Proc.devRef .tc main_v58) = _
  dsimp only [hostOps2]
  after_results
  rfl

theorem W7_row (c : Dev nD) :
    W7 m ρ c (Proc.devRef .tc main_v59) = Cert.Gcn.row64 (F := F) (m ((c : Thread nD τ).loc main_arg5)) := by
  rw [← W6_arg5 m ρ c]
  show StableHlo.after hostOps2 (W6 m ρ c) (Proc.devRef .tc main_v59) = _
  dsimp only [hostOps2]
  after_results
  exact row_eq (n := 64) _ shapeCasts_S64_S1x64 Cert.ReferenceIdeal.Gen.bcast_S64_S1x64_1 (by decide)

end Cert.KernelIdeal.Chain

end
-- ==== Proof.Region0.lean ====
/-
  Region 0 of the kernel program, read as a value: what its output array holds after the region, as the
  specification's function of the arrays the region finds.
-/
import proofs.«172581_j58557584114028_1_alg».proof.Proof.Gen.KernelIdeal.Frame
import proofs.«172581_j58557584114028_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

variable (V : (c : Dev nD) → (b : Ref sig .tc) → Buf (Elt Ideal) ((c : Thread nD τ).loc b))

/-! ## The two matrix products read at an index

Both are the same sum over the 256 columns of the left factor: the specification's product of the whole
[50000,256] array with the [256,128] weights, and the body's product of one [2000,256] block with them. -/

/-- The whole-array product: the left factor is read at the output's row. -/
theorem lhsW_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
/-- and at the contraction's column. -/
theorem lhsW_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
/-- The right factor is read at the contraction's row -/
theorem rhsW_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
/-- and at the output's column. -/
theorem rhsW_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- The first dense stage at row `p`, column `q`: row `p` of `x` against column `q` of `w`. -/
theorem dense1_apply (x : (⟨Cert.ReferenceIdeal.S50000x256, .f32⟩ : BufTy).Contents (Elt Ideal)) (w : (⟨Cert.ReferenceIdeal.S256x128, .f32⟩ : BufTy).Contents (Elt Ideal))
    (p : Fin 50000) (q : Fin 128) :
    Cert.Gcn.dense1 (F := Ideal) x w (ix2 p q) = ∑ k : Fin 256, x (ix2 p k) * w (ix2 k q) := by
  unfold Cert.Gcn.dense1
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 p q) ((ValueIdx.contrEquiv1 Cert.ReferenceIdeal.dot_S50000x256_S256x128_S50000x128_1_0_0_1_n_n 256 rfl rfl).symm k) = ix2 p k := funext fun a => Fin.ext (by
    match a with
    | ⟨0, _⟩ => exact lhsW_0 _ _
    | ⟨1, _⟩ => exact (lhsW_1 _ _).trans hk)
  have er : Cert.ReferenceIdeal.dot_S50000x256_S256x128_S50000x128_1_0_0_1_n_n.rhsIdx (ix2 p q) ((ValueIdx.contrEquiv1 Cert.ReferenceIdeal.dot_S50000x256_S256x128_S50000x128_1_0_0_1_n_n 256 rfl rfl).symm k) = ix2 k q := funext fun a => Fin.ext (by
    match a with
    | ⟨0, _⟩ => exact (rhsW_0 _ _).trans hk
    | ⟨1, _⟩ => exact rhsW_1 _ _)
  rw [el, er]

/-- One block's product: the left factor is read at the output's row, -/
theorem lhsB_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- and at the contraction's column. -/
theorem lhsB_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right factor is read at the contraction's row -/
theorem rhsB_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- and at the output's column. -/
theorem rhsB_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- What the body stores, at row `r` of its block and column `q`: row `r` of the left block against column `q`
    of the weights (the narrowing of both factors changes nothing on the extended reals, and the product is
    accumulated into zero). -/
theorem pay_apply (x0 : Vec Ideal S2000x256 .f32) (x1 : Vec Ideal S256x128 .f32) (r : Fin 2000) (q : Fin 128) :
    k0_pay1 (F := Ideal) x0 x1 (ix2 r q) = ∑ k : Fin 256, x0 (ix2 r k) * x1 (ix2 k q) := by
  unfold k0_pay1
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r q) ((ValueIdx.contrEquiv1 dot_S2000x256_S256x128_S2000x128_1_0_0_1_n_n 256 rfl rfl).symm k) = ix2 r k := funext fun a => Fin.ext (by
    match a with
    | ⟨0, _⟩ => exact lhsB_0 _ _
    | ⟨1, _⟩ => exact (lhsB_1 _ _).trans hk)
  have er : dot_S2000x256_S256x128_S2000x128_1_0_0_1_n_n.rhsIdx (ix2 r q) ((ValueIdx.contrEquiv1 dot_S2000x256_S256x128_S2000x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]
  rfl

/-! ## From the blocks to the array -/

theorem hz : (![0, 0] : Fin 2 → Nat) = fun _ => 0 := funext fun a => by fin_cases a <;> rfl

/-- The printed index maps, decided over the 25 grid points: the rows of `x` and of the output move with the
    point, 2000 at a time, on block column 0; the weights stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two arrays: row `r` of the block is
    row `2000 t + r` of `x` against the whole of the weights. -/
theorem flushed_eq (c : Dev nD) (t : Fin cfg0.N) :
    (dat0 (F := Ideal) V c).flushed 2 t
      = ((cfg0.win 2).blk t).view.read (Elt Ideal) (Cert.Gcn.dense1 (F := Ideal) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S2000x256) hz, View.ld_unit_zero (S := S256x128) hz]
  obtain ⟨e00, e01, e10, e11, e20, e21⟩ := idx_facts t
  have ht : t.val < 25 := lt_of_lt_of_eq t.isLt N_0
  funext j
  obtain ⟨r, q, rfl⟩ : ∃ (r : Fin 2000) (q : Fin 128), j = ix2 r q := ⟨j 0, j 1, eq_ix2 j⟩
  show k0_pay1 (F := Ideal) (iblk0 V c 0 t) (iblk0 V c 1 t) (ix2 r q)
    = Cert.Gcn.dense1 (F := Ideal) (V c main_arg0) (V c main_arg2) (((cfg0.win 2).blk t).view.emb (ix2 r q))
  have h2 : ((cfg0.win 2).blk t).view.emb (ix2 r q) = ix2 (⟨2000 * t.val + r.val, by omega⟩ : Fin 50000) q := by
    funext a; apply Fin.ext
    match a with
    | ⟨0, _⟩ => show win0_2.index t (0 : Fin 2) * 2000 + 1 * r.val = 2000 * t.val + r.val; omega
    | ⟨1, _⟩ => show win0_2.index t (1 : Fin 2) * 128 + 1 * q.val = q.val; omega
  rw [h2, pay_apply, dense1_apply]
  refine Finset.sum_congr rfl fun k _ => ?_
  have h0 : ((cfg0.win 0).blk t).view.emb (ix2 r k) = ix2 (⟨2000 * t.val + r.val, by omega⟩ : Fin 50000) k := by
    funext a; apply Fin.ext
    match a with
    | ⟨0, _⟩ => show win0_0.index t (0 : Fin 2) * 2000 + 1 * r.val = 2000 * t.val + r.val; omega
    | ⟨1, _⟩ => show win0_0.index t (1 : Fin 2) * 256 + 1 * k.val = k.val; omega
  have h1 : ((cfg0.win 1).blk t).view.emb (ix2 k q) = ix2 k q := by
    funext a; apply Fin.ext
    match a with
    | ⟨0, _⟩ => show win0_1.index t (0 : Fin 2) * 256 + 1 * k.val = k.val; omega
    | ⟨1, _⟩ => show win0_1.index t (1 : Fin 2) * 128 + 1 * q.val = q.val; omega
  have hx : iblk0 V c 0 t (ix2 r k) = V c main_arg0 (ix2 (⟨2000 * t.val + r.val, by omega⟩ : Fin 50000) k) := by
    show V c main_arg0 (((cfg0.win 0).blk t).view.emb (ix2 r k)) = _
    rw [h0]
  have hw : iblk0 V c 1 t (ix2 k q) = V c main_arg2 (ix2 k q) := by
    show V c main_arg2 (((cfg0.win 1).blk t).view.emb (ix2 k q)) = _
    rw [h1]
  rw [hx, hw]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The blocks tile the array: row `p` lies in the block of point `p / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, e20, e21⟩ := idx_facts t
  have q0 : win0_2.index t (0 : Fin 2) = (i 0).val / 2000 := e20
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After region 0 its output array is the matrix product of the two arrays it reads. -/
theorem value (c : Dev nD) :
    (dat0 (F := Ideal) V c).arrAt 2 cfg0.N = Cert.Gcn.dense1 (F := Ideal) (V c main_arg0) (V c main_arg2) :=
  (dat0 (F := Ideal) V c).arrAt_eq_of_cover 2 (Cert.Gcn.dense1 (F := Ideal) (V c main_arg0) (V c main_arg2))
    (fun t _ => flushed_eq V c t) cover

end Cert.KernelIdeal.Region0

end
-- ==== Proof.Region1.lean ====
/-
  Region 1 of the kernel program, read as a value: what its output array holds after the region, as the
  specification's function of the arrays the region finds.

  Each of the 25 grid points takes 2000 rows `x0` of the [50000,128] array, the row `x1` and the [128,64] matrix `x2`,
  and writes the block whose entry `(p, q)` is the sum over `k` of `max (x0 p k + x1 0 k) 0 * x2 k q`. The specification's
  `dense2 a b w` at `(r, q)` is the same sum over the whole arrays, so point `t` writes rows `2000 * t` to
  `2000 * t + 1999` of `dense2`, and the 25 blocks tile the 50000 rows.
-/
import proofs.«172581_j58557584114028_1_alg».proof.Proof.Gen.KernelIdeal.Frame
import proofs.«172581_j58557584114028_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## The specification's product read at an index -/

theorem specLhs0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem specLhs1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem specRhs0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem specRhs1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- The row `b` spread over every row of a [50000,128] array, read at an index. -/
theorem specRow_apply (b : (⟨Cert.ReferenceIdeal.S1x128, .f32⟩ : BufTy).Contents (Elt Ideal)) (p : Fin 50000) (k : Fin 128) :
    broadcastInDim Cert.ReferenceIdeal.S50000x128 ![0, 1] Cert.ReferenceIdeal.Facts₀.bcast_S1x128_S50000x128_0_1 b (ix2 p k) = b (ix2 (0 : Fin 1) k) :=
  broadcastInDim_apply _ Cert.ReferenceIdeal.Facts₀.bcast_S1x128_S50000x128_0_1 b (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])

/-- The zero spread over a [50000,128] array, read at an index. -/
theorem specZero_apply (i : Cert.ReferenceIdeal.S50000x128.Idx) :
    broadcastInDim Cert.ReferenceIdeal.S50000x128 ![] Cert.ReferenceIdeal.Facts₀.bcast_S_S50000x128 (constant (F := Ideal) Cert.ReferenceIdeal.S_ .f32 0x00000000#32) i = Ideal.ofBits .f32 0x00000000#32 :=
  broadcastInDim_apply _ Cert.ReferenceIdeal.Facts₀.bcast_S_S50000x128 (constant (F := Ideal) Cert.ReferenceIdeal.S_ .f32 0x00000000#32) i (fun a => a.elim0) (fun a => a.elim0)

/-- `dense2` at row `p`, column `q`: the sum over `k` of `max (a p k + b 0 k) 0 * w k q`. -/
theorem dense2_apply (a : (⟨Cert.ReferenceIdeal.S50000x128, .f32⟩ : BufTy).Contents (Elt Ideal)) (b : (⟨Cert.ReferenceIdeal.S1x128, .f32⟩ : BufTy).Contents (Elt Ideal))
    (w : (⟨Cert.ReferenceIdeal.S128x64, .f32⟩ : BufTy).Contents (Elt Ideal)) (p : Fin 50000) (q : Fin 64) :
    Cert.Gcn.dense2 (F := Ideal) a b w (ix2 p q)
      = ∑ k : Fin 128, max (a (ix2 p k) + b (ix2 (0 : Fin 1) k)) (Ideal.ofBits .f32 0x00000000#32) * w (ix2 k q) := by
  unfold Cert.Gcn.dense2
  simp only [Host.dotGeneral]
  rw [Ideal.dotGeneral_apply, ← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 p q) ((contrEquiv1 Cert.ReferenceIdeal.dot_S50000x128_S128x64_S50000x64_1_0_0_1_n_n 128 rfl rfl).symm k) = ix2 p k := funext fun a => Fin.ext (by
    match a with
    | ⟨0, _⟩ => exact specLhs0 _ _
    | ⟨1, _⟩ => exact (specLhs1 _ _).trans hk)
  have er : Cert.ReferenceIdeal.dot_S50000x128_S128x64_S50000x64_1_0_0_1_n_n.rhsIdx (ix2 p q) ((contrEquiv1 Cert.ReferenceIdeal.dot_S50000x128_S128x64_S50000x64_1_0_0_1_n_n 128 rfl rfl).symm k) = ix2 k q := funext fun a => Fin.ext (by
    match a with
    | ⟨0, _⟩ => exact (specRhs0 _ _).trans hk
    | ⟨1, _⟩ => exact specRhs1 _ _)
  rw [el, er, maximumf_apply, addf_apply, specRow_apply, specZero_apply]

/-! ## The body's product read at an index -/

theorem bodyLhs0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem bodyLhs1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem bodyRhs0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem bodyRhs1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The loaded row spread over the 2000 rows of a block, read at an index. -/
theorem bodyRow_apply (x1 : Vec Ideal S1x128 .f32) (p : Fin 2000) (k : Fin 128) :
    broadcastTo S2000x128 x1 Facts₀.broadcasts_S1x128_S2000x128 (ix2 p k) = x1 (ix2 (0 : Fin 1) k) :=
  broadcastTo_apply x1 Facts₀.broadcasts_S1x128_S2000x128 (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])

/-- The body's result block at row `p`, column `q`: the sum over `k` of `max (x0 p k + x1 0 k) 0 * x2 k q`. -/
theorem pay_apply (x0 : Vec Ideal S2000x128 .f32) (x1 : Vec Ideal S1x128 .f32) (x2 : Vec Ideal S128x64 .f32) (p : Fin 2000) (q : Fin 64) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact bodyLhs0 _ _
    | ⟨1, _⟩ => exact (bodyLhs1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (bodyRhs0 _ _).trans hk
    | ⟨1, _⟩ => exact bodyRhs1 _ _)
  rw [el, er, truncf_apply, truncf_apply, maximumf_apply, addf_apply, shapeCast_self, shapeCast_self, bodyRow_apply, broadcast_apply]
  rfl

variable (V : (c : Dev nD) → (b : Ref sig .tc) → Buf (Elt Ideal) ((c : Thread nD τ).loc b))

/-! ## From the blocks to the array -/

theorem zeroOffsets : (![0, 0] : Fin 2 → Nat) = fun _ => 0 := funext fun a => by fin_cases a <;> rfl

/-- The index maps over the 25 grid points: the row-blocked input and the output are at block row `t`, column block `0`;
    the two other inputs are whole. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- There are 25 grid points. -/
theorem point_lt (t : Fin cfg1.N) : t.val < 25 := lt_of_lt_of_eq t.isLt N_1

/-- What point `t` writes back is block `t` of `dense2` of the three arrays: row `r` of the block is row `2000 * t + r` of the array. -/
theorem flushed_eq (c : Dev nD) (t : Fin cfg1.N) :
    (dat1 (F := Ideal) V c).flushed 3 t
      = ((cfg1.win 3).blk t).view.read (Elt Ideal) (Cert.Gcn.dense2 (F := Ideal) (V c main_v43) (V c main_v44) (V c main_arg4)) := by
  show (cfg1.win 3).cut (grid1.coords t) ((dat1 (F := Ideal) V c).after 3 t) = _
  rw [after1_3]
  unfold out1_3
  rw [View.canon_unit_zero zeroOffsets]
  simp only [View.ld_unit_zero (S := S2000x128) zeroOffsets, View.ld_unit_zero (S := S1x128) zeroOffsets, View.ld_unit_zero (S := S128x64) zeroOffsets]
  obtain ⟨e00, e01, e10, e11, e20, e21, e30, e31⟩ := blockIndices t
  have ht := point_lt t
  funext j
  obtain ⟨p, q, rfl⟩ : ∃ (p : Fin 2000) (q : Fin 64), j = ix2 p q := ⟨j 0, j 1, eq_ix2 j⟩
  have hp : p.val < 2000 := p.isLt
  have hlt : 2000 * t.val + p.val < 50000 := by omega
  show k1_pay1 (F := Ideal) (iblk1 V c 0 t) (iblk1 V c 1 t) (iblk1 V c 2 t) (ix2 p q)
    = Cert.Gcn.dense2 (F := Ideal) (V c main_v43) (V c main_v44) (V c main_arg4) (((cfg1.win 3).blk t).view.emb (ix2 p q))
  have hemb : ((cfg1.win 3).blk t).view.emb (ix2 p q) = ix2 (⟨2000 * t.val + p.val, hlt⟩ : Fin 50000) q := by
    funext a; apply Fin.ext
    match a with
    | ⟨0, _⟩ => show win1_3.index t (0 : Fin 2) * 2000 + 1 * p.val = 2000 * t.val + p.val; omega
    | ⟨1, _⟩ => show win1_3.index t (1 : Fin 2) * 64 + 1 * q.val = q.val; omega
  refine ((pay_apply _ _ _ p q).trans ?_).trans ((congrArg _ hemb).trans (dense2_apply (V c main_v43) (V c main_v44) (V c main_arg4) ⟨2000 * t.val + p.val, hlt⟩ q)).symm
  refine Finset.sum_congr rfl fun k _ => ?_
  have h0 : iblk1 V c 0 t (ix2 p k) = V c main_v43 (ix2 (⟨2000 * t.val + p.val, hlt⟩ : Fin 50000) k) := by
    show V c main_v43 (((cfg1.win 0).blk t).view.emb (ix2 p k)) = _
    refine congrArg _ (funext fun a => Fin.ext ?_)
    match a with
    | ⟨0, _⟩ => show win1_0.index t (0 : Fin 2) * 2000 + 1 * p.val = 2000 * t.val + p.val; omega
    | ⟨1, _⟩ => show win1_0.index t (1 : Fin 2) * 128 + 1 * k.val = k.val; omega
  have h1 : iblk1 V c 1 t (ix2 (0 : Fin 1) k) = V c main_v44 (ix2 (0 : Fin 1) k) := by
    show V c main_v44 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have h2 : iblk1 V c 2 t (ix2 k q) = V c main_arg4 (ix2 k q) := by
    show V c main_arg4 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 64 + 1 * q.val = q.val; omega
  rw [h0, h1, h2]

/-- An index of the output array is in point `t`'s block iff each coordinate is in the block's range on its axis. -/
theorem mem_block (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v45).slice (win1_3.rect t)).set ↔ _
  rw [View.set_slice_whole, Rect.mem_set_unit]
  exact Iff.rfl

/-- The 25 blocks of 2000 rows tile the 50000 rows: row `r` is in the block of point `r / 2000`. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : (i 0).val / 2000 < cfg1.N := lt_of_lt_of_eq (show (i 0).val / 2000 < 25 by omega) N_1.symm
  obtain ⟨-, -, -, -, -, -, e30, e31⟩ := blockIndices ⟨(i 0).val / 2000, hN⟩
  have q0 : win1_3.index ⟨(i 0).val / 2000, hN⟩ (0 : Fin 2) = (i 0).val / 2000 := e30
  refine ⟨⟨(i 0).val / 2000, hN⟩, flush1_3 _, ?_⟩
  rw [mem_block]
  intro a
  match a with
  | ⟨0, _⟩ => show win1_3.index ⟨(i 0).val / 2000, hN⟩ (0 : Fin 2) * 2000 ≤ (i 0).val ∧ (i 0).val < win1_3.index ⟨(i 0).val / 2000, hN⟩ (0 : Fin 2) * 2000 + 2000; omega
  | ⟨1, _⟩ => show win1_3.index ⟨(i 0).val / 2000, hN⟩ (1 : Fin 2) * 64 ≤ (i 1).val ∧ (i 1).val < win1_3.index ⟨(i 0).val / 2000, hN⟩ (1 : Fin 2) * 64 + 64; omega

/-- After region 1 its output array is `dense2` of the three arrays it reads. -/
theorem value (c : Dev nD) :
    (dat1 (F := Ideal) V c).arrAt 3 cfg1.N = Cert.Gcn.dense2 (F := Ideal) (V c main_v43) (V c main_v44) (V c main_arg4) :=
  (dat1 (F := Ideal) V c).arrAt_eq_of_cover 3 (Cert.Gcn.dense2 (F := Ideal) (V c main_v43) (V c main_v44) (V c main_arg4))
    (fun t _ => flushed_eq V c t) covered

end Cert.KernelIdeal.Region1

end
-- ==== Proof.Region2.lean ====
/-
  Region 2 of the kernel program, read as a value: what its output array holds after the region, as the
  specification's function of the arrays the region finds.

  The specification's last stage and the body's payload are both, row by row, ONE function of a row of 64 entries:
  `rowLsm f q = (f q - max f) - log (∑ exp (f - max f))`, the maximum taken from `-∞`. The specification reads row `r` of
  the array plus the one-row operand; the body at grid point `t` reads row `p` of its block, which is row
  `5000 * t + p` of the array, plus the same one row. The ten blocks tile the array.
-/
import proofs.«172581_j58557584114028_1_alg».proof.Proof.Gen.KernelIdeal.Frame
import proofs.«172581_j58557584114028_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # One row's log-softmax, and the specification's function read row by row -/

namespace Cert.Gcn.LogsmRead

open Idealize.ShloMosaic Idealize.ShloMosaic.ValueIdx Cert.ReferenceIdeal Cert.ReferenceIdeal.Gen

/-- The largest of a row's 64 entries, the maximum taken from `-∞`. -/
def rowTop (f : Fin 64 → EReal) : EReal :=
  (Finset.univ : Finset (Fin 64)).fold max (Ideal.ofBits .f32 0xFF800000#32) f

/-- One row's log-softmax at column `q`: `(f q - max f) - log (∑ exp (f - max f))`. -/
def rowLsm (f : Fin 64 → EReal) (q : Fin 64) : EReal :=
  (f q - rowTop f) - Ideal.log (∑ k : Fin 64, Ideal.exp (f k - rowTop f))

/-- The pattern `0xFF800000` is `-∞`, the bottom element: a maximum against it changes nothing. -/
theorem max_negInf (y : EReal) : max (Ideal.ofBits .f32 0xFF800000#32) y = y := by
  simp [Ideal.ofBits, Ideal.ieee]

/-- The reduced index `r` with column `k` put back is `(r, k)`. -/
theorem lift_row {n m : Nat} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- The host's maximum over a row, from `-∞`, is the row's largest entry. -/
theorem hostRowMax_apply (z : FVec Ideal S50000x64 .f32) (r : Fin 50000) :
    Host.reduce FloatOps.maximumf z (constant (F := Ideal) S_ .f32 0xFF800000#32) reducesTo_S50000x64_S50000_d1 h_S_ (ix1 r)
      = rowTop (fun k => z (ix2 r k)) := by
  have h : S50000x64.Reduces [1] S50000 := by decide
  rw [Host.reduce_eq_fold_single FloatOps.maximumf z _ reducesTo_S50000x64_S50000_d1 h h_S_]
  have hf : (z ∘ h.lift (ix1 r)) = fun k : Fin 64 => z (ix2 r k) := funext fun k => congrArg z (lift_row h r k)
  exact congrArg (fun f => Finset.fold max (Ideal.ofBits .f32 0xFF800000#32) f (Finset.univ : Finset (Fin 64))) hf

/-- The specification's row maximum is the row's largest entry: its second maximum against `-∞` is the identity. -/
theorem rowMax_apply (z : FVec Ideal S50000x64 .f32) (r : Fin 50000) :
    Cert.Gcn.rowMax (F := Ideal) z (ix1 r) = rowTop (fun k => z (ix2 r k)) := by
  unfold Cert.Gcn.rowMax
  rw [maximumf_apply, hostRowMax_apply]
  exact max_negInf _

/-- A column `[50000]` set as `[50000, 1]` and spread over the 64 columns reads, at `(r, q)`, the column at `r`. -/
theorem colBcast_apply (y : S50000.Idx → EReal) (r : Fin 50000) (q : Fin 64) :
    broadcastInDim S50000x64 ![0, 1] bcast_S50000x1_S50000x64_0_1 (broadcastInDim S50000x1 ![0] bcast_S50000_S50000x1_0 y) (ix2 r q)
      = y (ix1 r) := by
  refine (broadcastInDim_apply _ bcast_S50000x1_S50000x64_0_1 _ (ix2 r q) (ix2 r (0 : Fin 1)) (fun a => ?_)).trans
    (broadcastInDim_apply _ bcast_S50000_S50000x1_0 y (ix2 r (0 : Fin 1)) (ix1 r) (fun a => ?_))
  · match a with
    | ⟨0, _⟩ => show r.val = if (50000 : Nat) = 1 then 0 else r.val; rw [if_neg (by decide)]
    | ⟨1, _⟩ => show 0 = if (1 : Nat) = 1 then 0 else q.val; rw [if_pos rfl]
  · match a with
    | ⟨0, _⟩ => show r.val = if (50000 : Nat) = 1 then 0 else r.val; rw [if_neg (by decide)]

/-- The same with the logarithm taken on the `[50000, 1]` column. -/
theorem colBcastLog_apply (y : FVec Ideal S50000 .f32) (r : Fin 50000) (q : Fin 64) :
    broadcastInDim S50000x64 ![0, 1] bcast_S50000x1_S50000x64_0_1 (Host.log (F := Ideal) (broadcastInDim S50000x1 ![0] bcast_S50000_S50000x1_0 y)) (ix2 r q)
      = Ideal.log (y (ix1 r)) :=
  colBcast_apply (fun i => Ideal.log (y i)) r q

/-- The host's sum over a row, from `0`, is the sum of the row's 64 entries. -/
theorem hostRowSum_apply (x : FVec Ideal S50000x64 .f32) (r : Fin 50000) :
    Host.reduceAdd (F := Ideal) x (constant (F := Ideal) S_ .f32 0x00000000#32) reducesTo_S50000x64_S50000_d1 h_S_ (ix1 r)
      = ∑ k : Fin 64, x (ix2 r k) := by
  have h : S50000x64.Reduces [1] S50000 := by decide
  simp only [Host.reduceAdd, Ideal.hostReduceAdd_def]
  rw [Ideal.hostReduceAdd_single reducesTo_S50000x64_S50000_d1 h]
  show Ideal.ofBits .f32 0x00000000#32 + _ = _
  rw [Ideal.ofBits_zero_f32, zero_add]
  exact Finset.sum_congr rfl fun k _ => congrArg x (lift_row h r k)

/-- The array with each row's largest entry subtracted, at `(r, q)`. -/
theorem shifted_apply (z : FVec Ideal S50000x64 .f32) (r : Fin 50000) (q : Fin 64) :
    Cert.Gcn.shifted (F := Ideal) z (ix2 r q) = z (ix2 r q) - rowTop (fun k => z (ix2 r k)) := by
  unfold Cert.Gcn.shifted
  rw [subf_apply, colBcast_apply, rowMax_apply]

/-- The specification's log-softmax of an array, at `(r, q)`, is row `r`'s log-softmax at `q`. -/
theorem logsmOf_apply (z : FVec Ideal S50000x64 .f32) (r : Fin 50000) (q : Fin 64) :
    Cert.Gcn.logsmOf (F := Ideal) z (ix2 r q) = rowLsm (fun k => z (ix2 r k)) q := by
  unfold Cert.Gcn.logsmOf rowLsm
  rw [subf_apply, shifted_apply, colBcastLog_apply, hostRowSum_apply]
  refine congrArg (fun s => _ - Ideal.log s) (Finset.sum_congr rfl fun k _ => ?_)
  show Ideal.exp (Cert.Gcn.shifted (F := Ideal) z (ix2 r k)) = _
  rw [shifted_apply]

/-- The specification's last stage at `(r, q)`: the log-softmax of row `r` of `a` with the row `b` added. -/
theorem logsm_apply (a : FVec Ideal S50000x64 .f32) (b : FVec Ideal S1x64 .f32) (r : Fin 50000) (q : Fin 64) :
    Cert.Gcn.logsm (F := Ideal) a b (ix2 r q) = rowLsm (fun k => a (ix2 r k) + b (ix2 (0 : Fin 1) k)) q := by
  unfold Cert.Gcn.logsm
  rw [logsmOf_apply]
  refine congrArg (fun f => rowLsm f q) (funext fun k => ?_)
  rw [addf_apply]
  refine congrArg (a (ix2 r k) + ·) ?_
  exact broadcastInDim_apply _ bcast_S1x64_S50000x64_0_1 b (ix2 r k) (ix2 (0 : Fin 1) k) (fun ax => match ax with
    | ⟨0, _⟩ => by show 0 = if (1 : Nat) = 1 then 0 else r.val; rw [if_pos rfl]
    | ⟨1, _⟩ => by show k.val = if (64 : Nat) = 1 then 0 else k.val; rw [if_neg (by decide)])

end Cert.Gcn.LogsmRead

/-! # Region 2: the body's payload at an index, the blocks, and the array -/

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx
open Cert.Gcn.LogsmRead (rowTop rowLsm max_negInf lift_row)

/-! ## The payload, stage by stage -/

/-- The block with the one-row operand added to every row. -/
def biased (x0 : FVec Ideal S5000x64 .f32) (x1 : FVec Ideal S1x64 .f32) : FVec Ideal S5000x64 .f32 :=
  addf (shapeCast S5000x64 x0 shapeCasts_S5000x64_S5000x64)
    (broadcastTo S5000x64 (shapeCast S1x64 x1 shapeCasts_S1x64_S1x64) broadcasts_S1x64_S5000x64)

/-- A block with each row's largest entry subtracted from the row. -/
def centred (z : FVec Ideal S5000x64 .f32) : FVec Ideal S5000x64 .f32 :=
  subf z (broadcastTo S5000x64 (shapeCast S5000x1
    (multiReduction .maximumf [1] S5000 z 0xFF800000#32 reduces_S5000x64_S5000 (.inl rfl) rfl) shapeCasts_S5000_S5000x1) broadcasts_S5000x1_S5000x64)

/-- A block with the logarithm of each row's sum of exponentials subtracted from the row. -/
def normed (s : FVec Ideal S5000x64 .f32) : FVec Ideal S5000x64 .f32 :=
  subf s (broadcastTo S5000x64 (log (shapeCast S5000x1
    (multiReduction .add [1] S5000 (exp s) 0x00000000#32 reduces_S5000x64_S5000 (.inl rfl) rfl) shapeCasts_S5000_S5000x1)) broadcasts_S5000x1_S5000x64)

/-- The body's payload is the three stages composed. -/
theorem pay_eq (x0 : FVec Ideal S5000x64 .f32) (x1 : FVec Ideal S1x64 .f32) :
    k2_pay1 (F := Ideal) x0 x1 = normed (centred (biased x0 x1)) := rfl

/-- A column `[n]` set as `[n, 1]` and spread over `m` columns reads, at `(p, q)`, the column at `p`. -/
theorem colSpread_apply {α : Type} {n m : Nat} (y : (⟨1, ![n]⟩ : Shape).Idx → α)
    (h : (⟨1, ![n]⟩ : Shape).ShapeCasts ⟨2, ![n, 1]⟩) (h' : (⟨2, ![n, 1]⟩ : Shape).Broadcasts ⟨2, ![n, m]⟩)
    (p : Fin n) (q : Fin m) :
    broadcastTo ⟨2, ![n, m]⟩ (shapeCast ⟨2, ![n, 1]⟩ y h) h' (ix2 p q) = y (ix1 p) := by
  refine (broadcastTo_apply _ h' (ix2 p q) (ix2 p (0 : Fin 1)) fun ax => ?_).trans
    (shapeCast_apply y h (ix2 p (0 : Fin 1)) (ix1 p) ?_)
  · match ax with
    | ⟨0, _⟩ =>
      show p.val = if n = 1 then 0 else p.val
      split
      · have := p.isLt; omega
      · rfl
    | ⟨1, _⟩ => show 0 = if (1 : Nat) = 1 then 0 else q.val; rw [if_pos rfl]
  · rw [Shape.rowMajor_val_two, Shape.rowMajor_val_one]
    show p.val = p.val * 1 + 0
    omega

/-- The same with the logarithm taken on the `[n, 1]` column. -/
theorem colSpreadLog_apply (y : FVec Ideal S5000 .f32) (p : Fin 5000) (q : Fin 64) :
    broadcastTo S5000x64 (log (shapeCast S5000x1 y shapeCasts_S5000_S5000x1)) broadcasts_S5000x1_S5000x64 (ix2 p q)
      = Ideal.log (y (ix1 p)) :=
  colSpread_apply (fun i => Ideal.log (y i)) shapeCasts_S5000_S5000x1 broadcasts_S5000x1_S5000x64 p q

/-- The body's maximum over a row, from `-∞`, is the row's largest entry. -/
theorem rowMaxK_apply (z : FVec Ideal S5000x64 .f32) (hφ : FKind.Formats .f32)
    (hacc : (0xFF800000#32 : BitVec 32) = 0xFF800000#32) (p : Fin 5000) :
    multiReduction .maximumf [1] S5000 z 0xFF800000#32 reduces_S5000x64_S5000 hφ hacc (ix1 p)
      = rowTop (fun k => z (ix2 p k)) := by
  refine (Ideal.multiReduction_maximumf_single z 0xFF800000#32 reduces_S5000x64_S5000 hφ hacc (ix1 p)).trans ?_
  have hf : (z ∘ reduces_S5000x64_S5000.lift (ix1 p)) = fun k : Fin 64 => z (ix2 p k) :=
    funext fun k => congrArg z (lift_row reduces_S5000x64_S5000 p k)
  exact congrArg (fun f => Finset.fold max (Ideal.ofBits .f32 0xFF800000#32) f (Finset.univ : Finset (Fin 64))) hf

/-- The body's sum over a row is the sum of the row's 64 entries. -/
theorem rowSumK_apply (x : FVec Ideal S5000x64 .f32) (hφ : FKind.Formats .f32)
    (hacc : (0x00000000#32 : BitVec 32) = 0x00000000#32) (p : Fin 5000) :
    multiReduction .add [1] S5000 x 0x00000000#32 reduces_S5000x64_S5000 hφ hacc (ix1 p)
      = ∑ k : Fin 64, x (ix2 p k) := by
  refine (Ideal.multiReduction_add_single x 0x00000000#32 reduces_S5000x64_S5000 hφ hacc (ix1 p)).trans ?_
  exact Finset.sum_congr rfl fun k _ => congrArg x (lift_row reduces_S5000x64_S5000 p k)

theorem biased_apply (x0 : FVec Ideal S5000x64 .f32) (x1 : FVec Ideal S1x64 .f32) (p : Fin 5000) (q : Fin 64) :
    biased x0 x1 (ix2 p q) = x0 (ix2 p q) + x1 (ix2 (0 : Fin 1) q) := by
  unfold biased
  rw [addf_apply, shapeCast_self, shapeCast_self, broadcastTo_1b_ab_apply]

theorem centred_apply (z : FVec Ideal S5000x64 .f32) (p : Fin 5000) (q : Fin 64) :
    centred z (ix2 p q) = z (ix2 p q) - rowTop (fun k => z (ix2 p k)) := by
  unfold centred
  rw [subf_apply, colSpread_apply, rowMaxK_apply]

theorem normed_apply (s : FVec Ideal S5000x64 .f32) (p : Fin 5000) (q : Fin 64) :
    normed s (ix2 p q) = s (ix2 p q) - Ideal.log (∑ k : Fin 64, Ideal.exp (s (ix2 p k))) := by
  unfold normed
  rw [subf_apply, colSpreadLog_apply, rowSumK_apply]
  rfl

/-- THE PAYLOAD AT AN INDEX: row `p`'s log-softmax, the row being the block's row with the one-row operand added. -/
theorem pay_apply (x0 : FVec Ideal S5000x64 .f32) (x1 : FVec Ideal S1x64 .f32) (p : Fin 5000) (q : Fin 64) :
    k2_pay1 (F := Ideal) x0 x1 (ix2 p q) = rowLsm (fun k => x0 (ix2 p k) + x1 (ix2 (0 : Fin 1) k)) q := by
  rw [pay_eq, normed_apply]
  unfold rowLsm
  simp only [centred_apply, biased_apply]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the row-blocked input and the output are at block row
    `t`, block column `0`; the one-row input is whole at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the payload at point `t` is row `5000 * t + p` of the specification's function of the two arrays: the
    input block's row `p` is the array's row `5000 * t + p`, and the one-row input is read whole. -/
theorem block_row (c : Dev nD) (t : Fin cfg2.N) (p : Fin 5000) (q : Fin 64) (r : Fin 50000) (hr : r.val = t.val * 5000 + p.val) :
    k2_pay1 (F := Ideal) (iblk2 V c 0 t) (iblk2 V c 1 t) (ix2 p q)
      = Cert.Gcn.logsm (F := Ideal) (V c main_v58) (V c main_v59) (ix2 r q) := by
  obtain ⟨e0, e1, e2, e3, e4, e5⟩ := idx_facts t
  rw [pay_apply, Cert.Gcn.LogsmRead.logsm_apply]
  refine congrArg (fun f => rowLsm f q) (funext fun k => ?_)
  have h0 : iblk2 V c 0 t (ix2 p k) = V c main_v58 (ix2 r k) := by
    show V c main_v58 (((cfg2.win 0).blk t).view.emb (ix2 p k)) = V c main_v58 (ix2 r k)
    refine congrArg (V c main_v58) (funext fun a => Fin.ext ?_)
    match a with
    | ⟨0, _⟩ => show win2_0.index t (0 : Fin 2) * 5000 + 1 * p.val = r.val; omega
    | ⟨1, _⟩ => show win2_0.index t (1 : Fin 2) * 64 + 1 * k.val = k.val; omega
  have h1 : iblk2 V c 1 t (ix2 (0 : Fin 1) k) = V c main_v59 (ix2 (0 : Fin 1) k) := by
    show V c main_v59 (((cfg2.win 1).blk t).view.emb (ix2 (0 : Fin 1) k)) = V c main_v59 (ix2 (0 : Fin 1) k)
    refine congrArg (V c main_v59) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  exact congrArg₂ (fun x y : EReal => x + y) h0 h1

/-- WHAT POINT `t` WRITES BACK is block `t` of the specification's function of the arrays the region finds. -/
theorem flushed_eq (c : Dev nD) (t : Fin cfg2.N) :
    (dat2 (F := Ideal) V c).flushed 2 t
      = ((cfg2.win 2).blk t).view.read (Elt Ideal) (Cert.Gcn.logsm (F := Ideal) (V c main_v58) (V c main_v59)) := by
  show (cfg2.win 2).cut (grid2.coords t) ((dat2 (F := Ideal) V c).after 2 t) = _
  rw [after2_2]
  unfold out2_2
  rw [View.canon_unit_zero hz]
  simp only [View.ld_unit_zero (S := S5000x64) hz, View.ld_unit_zero (S := S1x64) hz]
  obtain ⟨e0, e1, e2, e3, e4, e5⟩ := idx_facts t
  funext j
  have hp : (j 0).val < 5000 := (j 0).isLt
  have hq : (j 1).val < 64 := (j 1).isLt
  have ht : t.val < 10 := Nat.lt_of_lt_of_eq t.isLt N_2
  have h1 : (cfg2.win 2).xinj (grid2.coords t) j = ix2 (⟨(j 0).val, hp⟩ : Fin 5000) (⟨(j 1).val, hq⟩ : Fin 64) :=
    funext fun a => Fin.ext (by match a with | ⟨0, _⟩ => rfl | ⟨1, _⟩ => rfl)
  have h2 : ((cfg2.win 2).blk t).view.emb j
      = ix2 (⟨t.val * 5000 + (j 0).val, by omega⟩ : Fin 50000) (⟨(j 1).val, hq⟩ : Fin 64) := by
    funext a; apply Fin.ext
    match a with
    | ⟨0, _⟩ => show win2_2.index t (0 : Fin 2) * 5000 + 1 * (j 0).val = t.val * 5000 + (j 0).val; omega
    | ⟨1, _⟩ => show win2_2.index t (1 : Fin 2) * 64 + 1 * (j 1).val = (j 1).val; omega
  exact (congrArg (k2_pay1 (F := Ideal) (iblk2 V c 0 t) (iblk2 V c 1 t)) h1).trans
    ((block_row V c t _ _ _ rfl).trans
      (congrArg (Cert.Gcn.logsm (F := Ideal) (V c main_v58) (V c main_v59)) h2.symm))

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v60).slice (win2_2.rect t)).set ↔ _
  rw [View.set_slice_whole, Rect.mem_set_unit]
  exact Iff.rfl

/-- The blocks tile the array: row `r` lies in the block of point `r / 5000`. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After region 2 its output array is the row-wise log-softmax of the biased array it reads. -/
theorem value (c : Dev nD) :
    (dat2 (F := Ideal) V c).arrAt 2 cfg2.N = Cert.Gcn.logsm (F := Ideal) (V c main_v58) (V c main_v59) :=
  (dat2 (F := Ideal) V c).arrAt_eq_of_cover 2 _ (fun t _ => flushed_eq V c t) covered

end Cert.KernelIdeal.Region2

end
-- ==== Proof.KernelValue.lean ====
/-
  The kernel program's result array as the specification's function of its six arguments, at the extended reals.

  Region 0 leaves `dense1 x w1`; the host operations after it one propagation step at width 128 and the first bias
  as a row; region 1 leaves `dense2` of those; the host operations after it one propagation step at width 64 and the
  second bias as a row; region 2 leaves `logsm` of those: together `gcn` of the six arguments.
-/
import proofs.«172581_j58557584114028_1_alg».proof.Proof.HostChain
import proofs.«172581_j58557584114028_1_alg».proof.Proof.Region0
import proofs.«172581_j58557584114028_1_alg».proof.Proof.Region1
import proofs.«172581_j58557584114028_1_alg».proof.Proof.Region2

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What region 0 leaves: the product of the first two matrices as launched. -/
theorem W4_dense (c : Dev nD) :
    W4 m ρ c (Proc.devRef .tc main_v30)
      = Cert.Gcn.dense1 (F := Ideal) (m ((c : Thread nD τ).loc main_arg0)) (m ((c : Thread nD τ).loc main_arg2)) := by
  have h := (W4_arr m ρ c 2).trans (Cert.KernelIdeal.Region0.value (V3 m ρ) c)
  rw [show V3 m ρ c main_arg0 = _ from W3_arg0 m ρ c, show V3 m ρ c main_arg2 = _ from W3_arg2 m ρ c] at h
  exact h

/-- What region 1 leaves. -/
theorem W6_dense (c : Dev nD) :
    W6 m ρ c (Proc.devRef .tc main_v45)
      = Cert.Gcn.dense2 (F := Ideal)
          (Cert.Gcn.prop128 (Cert.Gcn.dense1 (m ((c : Thread nD τ).loc main_arg0)) (m ((c : Thread nD τ).loc main_arg2)))
            (Cert.Gcn.src (m ((c : Thread nD τ).loc main_arg1))) (Cert.Gcn.dst (m ((c : Thread nD τ).loc main_arg1)))
            (Cert.Gcn.norm (m ((c : Thread nD τ).loc main_arg1))))
          (Cert.Gcn.row128 (m ((c : Thread nD τ).loc main_arg3))) (m ((c : Thread nD τ).loc main_arg4)) := by
  have h := (W6_arr m ρ c 3).trans (Cert.KernelIdeal.Region1.value (V5 m ρ) c)
  rw [show V5 m ρ c main_v43 = _ from W5_prop m ρ c, show V5 m ρ c main_v44 = _ from W5_row m ρ c,
    show V5 m ρ c main_arg4 = _ from W5_arg4 m ρ c, W4_dense m ρ c] at h
  exact h

/-- What region 2 leaves: the whole network's value. -/
theorem W8_value (c : Dev nD) :
    W8 m ρ c (Proc.devRef .tc main_v60)
      = Cert.Gcn.gcn (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have h := (W8_arr m ρ c 2).trans (Cert.KernelIdeal.Region2.value (V7 m ρ) c)
  rw [show V7 m ρ c main_v58 = _ from W7_prop m ρ c, show V7 m ρ c main_v59 = _ from W7_row m ρ c,
    W6_dense m ρ c] at h
  exact h

end Cert.KernelIdeal.Chain

end
-- ==== Proof.RefStretches.lean ====
import proofs.«172581_j58557584114028_1_alg».proof.Proof.RefRun

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- Operations 0 to 20 of @main, in order. -/
def opsA1 : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 21 to 39 of @main, in order. -/
def opsA2 : List (HloOp τ sig (Elt F)) :=
  [ nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v3 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v3 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)) ]

/-- Operations 40 to 40 of @main, in order. -/
def opsB : List (HloOp τ sig (Elt F)) :=
  [ binary main_arg0 main_arg2 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- Operations 41 to 56 of @main, in order. -/
def opsC : List (HloOp τ sig (Elt F)) :=
  [ nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v3 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- Operations 57 to 63 of @main, in order. -/
def opsD : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- Operations 64 to 79 of @main, in order. -/
def opsE : List (HloOp τ sig (Elt F)) :=
  [ nullary main_c_9 (constantI S_ 32 0#32),
    unary main_c_9 main_v49 (broadcastInDim S1650000 ![] bcast_S_S1650000 : (⟨S_, .i32⟩ : BufTy).Contents (Elt F) → (⟨S1650000, .i32⟩ : BufTy).Contents (Elt F)),
    binary main_v3 main_v49 main_v50 (cmpi .slt : (⟨S1650000, .i32⟩ : BufTy).Contents (Elt F) → (⟨S1650000, .i32⟩ : BufTy).Contents (Elt F) → (⟨S1650000, .i1⟩ : BufTy).Contents (Elt F)),
    nullary main_c_10 (constantI S_ 32 50000#32),
    unary main_c_10 main_v51 (broadcastInDim S1650000 ![] bcast_S_S1650000 : (⟨S_, .i32⟩ : BufTy).Contents (Elt F) → (⟨S1650000, .i32⟩ : BufTy).Contents (Elt F)),
    binary main_v3 main_v51 main_v52 (addi : (⟨S1650000, .i32⟩ : BufTy).Contents (Elt F) → (⟨S1650000, .i32⟩ : BufTy).Contents (Elt F) → (⟨S1650000, .i32⟩ : BufTy).Contents (Elt F)),
    ternary main_v50 main_v52 main_v3 main_v53 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v53 main_v54 (broadcastInDim S1650000x1 ![0] bcast_S1650000_S1650000x1_0 : (⟨S1650000, .i32⟩ : BufTy).Contents (Elt F) → (⟨S1650000x1, .i32⟩ : BufTy).Contents (Elt F)),
    binary main_v48 main_v54 main_v55 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v29 main_v56 (broadcastInDim S1650000x1 ![0] bcast_S1650000_S1650000x1_0 : (⟨S1650000, .f32⟩ : BufTy).Contents (Elt F) → (⟨S1650000x1, .f32⟩ : BufTy).Contents (Elt F)),
    unary main_v56 main_v57 (broadcastInDim S1650000x64 ![0, 1] bcast_S1650000x1_S1650000x64_0_1 : (⟨S1650000x1, .f32⟩ : BufTy).Contents (Elt F) → (⟨S1650000x64, .f32⟩ : BufTy).Contents (Elt F)),
    binary main_v55 main_v57 main_v58 (mulf : (⟨S1650000x64, .f32⟩ : BufTy).Contents (Elt F) → (⟨S1650000x64, .f32⟩ : BufTy).Contents (Elt F) → (⟨S1650000x64, .f32⟩ : BufTy).Contents (Elt F)),
    nullary main_cst_11 (constant S_ .f32 0x00000000#32),
    unary main_cst_11 main_v59 (broadcastInDim S50000x64 ![] bcast_S_S50000x64 : (⟨S_, .f32⟩ : BufTy).Contents (Elt F) → (⟨S50000x64, .f32⟩ : BufTy).Contents (Elt F)),
    unary main_v6 main_v60 (broadcastInDim S1650000x1 ![0] bcast_S1650000_S1650000x1_0 : (⟨S1650000, .i32⟩ : BufTy).Contents (Elt F) → (⟨S1650000x1, .i32⟩ : BufTy).Contents (Elt F)),
    ternary main_v59 main_v60 main_v58 main_v61 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)) ]

/-- Operations 80 to 82 of @main, in order. -/
def opsF1 : List (HloOp τ sig (Elt F)) :=
  [ unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)) ]

/-- Operations 83 to 84 of @main, in order. -/
def opsF2a : List (HloOp τ sig (Elt F)) :=
  [ TRef.nullary (TRef.of (T := ⟨S_, .f32⟩) main_call2_cst) (constant S_ .f32 0xFF800000#32),
    TRef.binary (TRef.of (T := ⟨S50000x64, .f32⟩) main_v64) (TRef.of (T := ⟨S_, .f32⟩) main_call2_cst) (TRef.of (T := ⟨S50000, .f32⟩) main_call2_v0) (fun x v => Host.reduce FloatOps.maximumf x v reducesTo_S50000x64_S50000_d1 h_S_) ]

/-- Operations 85 to 87 of @main, in order. -/
def opsF2b : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf ]

/-- Operations 88 to 90 of @main, in order. -/
def opsF2c : List (HloOp τ sig (Elt F)) :=
  [ TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v64) (TRef.of (T := ⟨S50000x64, .f32⟩) main_call2_v4) (TRef.of (T := ⟨S50000x64, .f32⟩) main_call2_v5) subf ]

/-- Operations 91 to 93 of @main, in order. -/
def opsF2d : List (HloOp τ sig (Elt F)) :=
  [ TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_) ]

/-- Operations 94 to 97 of @main, in order. -/
def opsF2e : List (HloOp τ sig (Elt F)) :=
  [ TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v65) subf ]

end Cert.ReferenceIdeal.Chain

end
-- ==== Proof.RefChain.lean ====
/-
  The reference program's result as the specification's function of its six arguments.

  Its 98 host operations are read in twelve stretches, each over ANY contents `W` of the buffers it starts from: the
  edges' end points and `dinv` (operations 0 to 20), `norm` (21 to 39), the first matrix product (40), one
  propagation step at width 128 (41 to 56), bias, `max (·, 0)` and the second matrix product (57 to 63), one
  propagation step at width 64 (64 to 79), the second bias (80 to 82), and the row-wise log-softmax in five: the row maximum from `-∞` (83, 84), one more maximum with `-∞` (85 to 87), the shift by it (88 to 90), the exponential and the row sum (91 to 93), the logarithm and the last shift (94 to 97); each of the two reduces ends its stretch, so that its result is read at once and never through later operations. A stretch writes only
  buffers of its own, so what the earlier ones computed, and the arguments, are still there after it. Composed,
  the result buffer holds `gcn` of the six arguments, and the run of the whole program follows.
-/
import proofs.«172581_j58557584114028_1_alg».proof.Proof.RefStretches
import proofs.«172581_j58557584114028_1_alg».proof.Proof.Spec
import Idealize.ShloMosaic.Lib.Pipeline.Frame
import Idealize.ShloMosaic.Lib.StableHlo.Run

set_option maxRecDepth 16384

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- The program's operation list is the twelve stretches in order. -/
theorem ops_split : (ValueP.ops (F := F)) = opsA1 ++ (opsA2 ++ (opsB ++ (opsC ++ (opsD ++ (opsE ++ (opsF1 ++ (opsF2a ++ (opsF2b ++ (opsF2c ++ (opsF2d ++ opsF2e)))))))))) := rfl

/-- So the contents after the whole list are the stretches' contents composed. -/
theorem after_split (W : Valuation τ sig (Elt F)) :
    after (ValueP.ops (F := F)) W = after opsF2e (after opsF2d (after opsF2c (after opsF2b (after opsF2a (after opsF1 (after opsE (after opsD (after opsC (after opsB (after opsA2 (after opsA1 W))))))))))) := by
  rw [ops_split]
  simp only [StableHlo.after_append]

variable (W : Valuation τ sig (Elt F))

/-! ## What each stretch computes -/

theorem A1_src : after (opsA1 (F := F)) W (Proc.devRef .tc main_v3) = Cert.Gcn.src (W (Proc.devRef .tc main_arg1)) := by
  unfold opsA1; after_results; rfl

theorem A1_dst : after (opsA1 (F := F)) W (Proc.devRef .tc main_v6) = Cert.Gcn.dst (W (Proc.devRef .tc main_arg1)) := by
  unfold opsA1; after_results; rfl

theorem A1_dinv : after (opsA1 (F := F)) W (Proc.devRef .tc main_v14) = Cert.Gcn.dinv (W (Proc.devRef .tc main_arg1)) := by
  unfold opsA1; after_results; rfl

set_option maxHeartbeats 4000000 in
theorem A2_norm : after (opsA2 (F := F)) W (Proc.devRef .tc main_v29)
    = mulf (Host.gather gather_S50000_S1650000x1_S1650000_n_0_n_n_0_1_1 (W (Proc.devRef .tc main_v14)) (Cert.Gcn.wrap (W (Proc.devRef .tc main_v3))))
        (Host.gather gather_S50000_S1650000x1_S1650000_n_0_n_n_0_1_1 (W (Proc.devRef .tc main_v14)) (Cert.Gcn.wrap (W (Proc.devRef .tc main_v6)))) := by
  unfold opsA2; after_results; rfl

theorem B_dense : after (opsB (F := F)) W (Proc.devRef .tc main_v30)
    = Cert.Gcn.dense1 (W (Proc.devRef .tc main_arg0)) (W (Proc.devRef .tc main_arg2)) := by
  unfold opsB; after_results; rfl

set_option maxHeartbeats 4000000 in
theorem C_prop : after (opsC (F := F)) W (Proc.devRef .tc main_v43)
    = Cert.Gcn.prop128 (W (Proc.devRef .tc main_v30)) (W (Proc.devRef .tc main_v3)) (W (Proc.devRef .tc main_v6)) (W (Proc.devRef .tc main_v29)) := by
  unfold opsC; after_results; rfl

theorem D_dense : after (opsD (F := F)) W (Proc.devRef .tc main_v48)
    = Cert.Gcn.dense2 (W (Proc.devRef .tc main_v43)) (Cert.Gcn.row128 (W (Proc.devRef .tc main_arg3))) (W (Proc.devRef .tc main_arg4)) := by
  unfold opsD; after_results; rfl

set_option maxHeartbeats 4000000 in
theorem E_prop : after (opsE (F := F)) W (Proc.devRef .tc main_v61)
    = Cert.Gcn.prop64 (W (Proc.devRef .tc main_v48)) (W (Proc.devRef .tc main_v3)) (W (Proc.devRef .tc main_v6)) (W (Proc.devRef .tc main_v29)) := by
  unfold opsE; after_results; rfl

theorem F1_bias : after (opsF1 (F := F)) W (Proc.devRef .tc main_v64)
    = addf (W (Proc.devRef .tc main_v61)) (broadcastInDim S50000x64 ![0, 1] bcast_S1x64_S50000x64_0_1 (Cert.Gcn.row64 (W (Proc.devRef .tc main_arg5)))) := by
  unfold opsF1; after_results; rfl

/-- The row maximum taken from `-∞`. -/
theorem F2a_reduce : after (opsF2a (F := F)) W (Proc.devRef .tc main_call2_v0)
    = Host.reduce FloatOps.maximumf (W (Proc.devRef .tc main_v64)) (constant S_ .f32 0xFF800000#32) reducesTo_S50000x64_S50000_d1 h_S_ := by
  unfold opsF2a; after_results; simp only [TRef.ofBuf, TRef.toBuf, cast_eq]

/-- Neither of its two operations writes the array it reduces. -/
theorem F2a_keep : after (opsF2a (F := F)) W (Proc.devRef .tc main_v64) = W (Proc.devRef .tc main_v64) :=
  StableHlo.after_of_forall_not_mem (b := Proc.devRef .tc main_v64) _ _ (List.forall_iff_forall_mem.mp (by
    simp only [opsF2a, List.Forall, StableHlo.nullary_writes, StableHlo.binary_writes, Finset.mem_singleton]
    repeat' apply And.intro
    all_goals exact StableHlo.devRef_ne_of_ne (by decide)))

/-- One more maximum with `-∞`: the specification's `rowMax` once the reduce is put in; the array still there. -/
theorem F2b_max : after (opsF2b (F := F)) W (Proc.devRef .tc main_call2_v2)
      = maximumf (broadcastInDim S50000 ![] bcast_S_S50000 (constant S_ .f32 0xFF800000#32)) (W (Proc.devRef .tc main_call2_v0))
    ∧ after (opsF2b (F := F)) W (Proc.devRef .tc main_v64) = W (Proc.devRef .tc main_v64) := by
  refine ⟨?_, ?_⟩
  · unfold opsF2b; after_results; simp only [TRef.ofBuf, TRef.toBuf, cast_eq]
  · unfold opsF2b; after_results

/-- The array with the row maximum taken off every row. -/
theorem F2c_shift : after (opsF2c (F := F)) W (Proc.devRef .tc main_call2_v5)
    = subf (W (Proc.devRef .tc main_v64)) (broadcastInDim S50000x64 ![0, 1] bcast_S50000x1_S50000x64_0_1
        (broadcastInDim S50000x1 ![0] bcast_S50000_S50000x1_0 (W (Proc.devRef .tc main_call2_v2)))) := by
  unfold opsF2c; after_results; simp only [TRef.ofBuf, TRef.toBuf, cast_eq]

/-- The rows' exponential sums, from `0`. -/
theorem F2d_sum : after (opsF2d (F := F)) W (Proc.devRef .tc main_call2_v7)
    = Host.reduceAdd (Host.exp (W (Proc.devRef .tc main_call2_v5))) (constant S_ .f32 0x00000000#32) reducesTo_S50000x64_S50000_d1 h_S_ := by
  unfold opsF2d; after_results; simp only [TRef.ofBuf, TRef.toBuf, cast_eq]

/-- None of its three operations writes the shifted array. -/
theorem F2d_keep : after (opsF2d (F := F)) W (Proc.devRef .tc main_call2_v5) = W (Proc.devRef .tc main_call2_v5) :=
  StableHlo.after_of_forall_not_mem (b := Proc.devRef .tc main_call2_v5) _ _ (List.forall_iff_forall_mem.mp (by
    simp only [opsF2d, List.Forall, StableHlo.nullary_writes, StableHlo.unary_writes, StableHlo.binary_writes, Finset.mem_singleton]
    repeat' apply And.intro
    all_goals exact StableHlo.devRef_ne_of_ne (by decide)))

/-- The shifted array minus the logarithm of its rows' exponential sums. -/
theorem F2e_out : after (opsF2e (F := F)) W (Proc.devRef .tc main_v65)
    = subf (W (Proc.devRef .tc main_call2_v5)) (broadcastInDim S50000x64 ![0, 1] bcast_S50000x1_S50000x64_0_1
        (Host.log (broadcastInDim S50000x1 ![0] bcast_S50000_S50000x1_0 (W (Proc.devRef .tc main_call2_v7))))) := by
  unfold opsF2e; after_results; simp only [TRef.ofBuf, TRef.toBuf, cast_eq]

/-- The five together: the row-wise log-softmax of the array the first of them starts from. -/
theorem F2_logsm (W : Valuation τ sig (Elt F)) :
    after (opsF2e (F := F)) (after opsF2d (after opsF2c (after opsF2b (after opsF2a W)))) (Proc.devRef .tc main_v65)
      = Cert.Gcn.logsmOf (W (Proc.devRef .tc main_v64)) := by
  rw [F2e_out, F2d_sum, F2d_keep, F2c_shift, (F2b_max _).1, (F2b_max _).2, F2a_reduce, F2a_keep]
  unfold Cert.Gcn.logsmOf Cert.Gcn.shifted Cert.Gcn.rowMax
  with_reducible rfl

/-! ## What each stretch leaves alone -/

theorem A1_keep :
    after (opsA1 (F := F)) W (Proc.devRef .tc main_arg0) = W (Proc.devRef .tc main_arg0)
    ∧ after (opsA1 (F := F)) W (Proc.devRef .tc main_arg2) = W (Proc.devRef .tc main_arg2)
    ∧ after (opsA1 (F := F)) W (Proc.devRef .tc main_arg3) = W (Proc.devRef .tc main_arg3)
    ∧ after (opsA1 (F := F)) W (Proc.devRef .tc main_arg4) = W (Proc.devRef .tc main_arg4)
    ∧ after (opsA1 (F := F)) W (Proc.devRef .tc main_arg5) = W (Proc.devRef .tc main_arg5) := by
  refine ⟨?_, ?_, ?_, ?_, ?_⟩ <;> (unfold opsA1; after_results)

theorem A2_keep :
    after (opsA2 (F := F)) W (Proc.devRef .tc main_v3) = W (Proc.devRef .tc main_v3)
    ∧ after (opsA2 (F := F)) W (Proc.devRef .tc main_v6) = W (Proc.devRef .tc main_v6)
    ∧ after (opsA2 (F := F)) W (Proc.devRef .tc main_arg0) = W (Proc.devRef .tc main_arg0)
    ∧ after (opsA2 (F := F)) W (Proc.devRef .tc main_arg2) = W (Proc.devRef .tc main_arg2)
    ∧ after (opsA2 (F := F)) W (Proc.devRef .tc main_arg3) = W (Proc.devRef .tc main_arg3)
    ∧ after (opsA2 (F := F)) W (Proc.devRef .tc main_arg4) = W (Proc.devRef .tc main_arg4)
    ∧ after (opsA2 (F := F)) W (Proc.devRef .tc main_arg5) = W (Proc.devRef .tc main_arg5) := by
  refine ⟨?_, ?_, ?_, ?_, ?_, ?_, ?_⟩ <;> (unfold opsA2; after_results)

theorem B_keep :
    after (opsB (F := F)) W (Proc.devRef .tc main_v3) = W (Proc.devRef .tc main_v3)
    ∧ after (opsB (F := F)) W (Proc.devRef .tc main_v6) = W (Proc.devRef .tc main_v6)
    ∧ after (opsB (F := F)) W (Proc.devRef .tc main_v29) = W (Proc.devRef .tc main_v29)
    ∧ after (opsB (F := F)) W (Proc.devRef .tc main_arg3) = W (Proc.devRef .tc main_arg3)
    ∧ after (opsB (F := F)) W (Proc.devRef .tc main_arg4) = W (Proc.devRef .tc main_arg4)
    ∧ after (opsB (F := F)) W (Proc.devRef .tc main_arg5) = W (Proc.devRef .tc main_arg5) := by
  refine ⟨?_, ?_, ?_, ?_, ?_, ?_⟩ <;> (unfold opsB; after_results)

theorem C_keep :
    after (opsC (F := F)) W (Proc.devRef .tc main_v3) = W (Proc.devRef .tc main_v3)
    ∧ after (opsC (F := F)) W (Proc.devRef .tc main_v6) = W (Proc.devRef .tc main_v6)
    ∧ after (opsC (F := F)) W (Proc.devRef .tc main_v29) = W (Proc.devRef .tc main_v29)
    ∧ after (opsC (F := F)) W (Proc.devRef .tc main_arg3) = W (Proc.devRef .tc main_arg3)
    ∧ after (opsC (F := F)) W (Proc.devRef .tc main_arg4) = W (Proc.devRef .tc main_arg4)
    ∧ after (opsC (F := F)) W (Proc.devRef .tc main_arg5) = W (Proc.devRef .tc main_arg5) := by
  refine ⟨?_, ?_, ?_, ?_, ?_, ?_⟩ <;> (unfold opsC; after_results)

theorem D_keep :
    after (opsD (F := F)) W (Proc.devRef .tc main_v3) = W (Proc.devRef .tc main_v3)
    ∧ after (opsD (F := F)) W (Proc.devRef .tc main_v6) = W (Proc.devRef .tc main_v6)
    ∧ after (opsD (F := F)) W (Proc.devRef .tc main_v29) = W (Proc.devRef .tc main_v29)
    ∧ after (opsD (F := F)) W (Proc.devRef .tc main_arg5) = W (Proc.devRef .tc main_arg5) := by
  refine ⟨?_, ?_, ?_, ?_⟩ <;> (unfold opsD; after_results)

theorem E_keep :
    after (opsE (F := F)) W (Proc.devRef .tc main_arg5) = W (Proc.devRef .tc main_arg5) := by
  unfold opsE; after_results

/-! ## Composed: the result buffer after the whole list -/

/-- After all 98 operations the result buffer holds `gcn` of the six arguments' contents. -/
theorem after_v65 : after (ValueP.ops (F := F)) W (Proc.devRef .tc main_v65)
    = Cert.Gcn.gcn (W (Proc.devRef .tc main_arg0)) (W (Proc.devRef .tc main_arg1)) (W (Proc.devRef .tc main_arg2))
        (W (Proc.devRef .tc main_arg3)) (W (Proc.devRef .tc main_arg4)) (W (Proc.devRef .tc main_arg5)) := by
  rw [after_split, F2_logsm, F1_bias, E_prop, E_keep]
  rw [D_dense, (D_keep _).1, (D_keep _).2.1, (D_keep _).2.2.1, (D_keep _).2.2.2]
  rw [C_prop, (C_keep _).1, (C_keep _).2.1, (C_keep _).2.2.1, (C_keep _).2.2.2.1, (C_keep _).2.2.2.2.1, (C_keep _).2.2.2.2.2]
  rw [B_dense, (B_keep _).1, (B_keep _).2.1, (B_keep _).2.2.1, (B_keep _).2.2.2.1, (B_keep _).2.2.2.2.1, (B_keep _).2.2.2.2.2]
  rw [A2_norm, (A2_keep _).1, (A2_keep _).2.1, (A2_keep _).2.2.1, (A2_keep _).2.2.2.1, (A2_keep _).2.2.2.2.1,
    (A2_keep _).2.2.2.2.2.1, (A2_keep _).2.2.2.2.2.2]
  rw [A1_src, A1_dst, A1_dinv, (A1_keep _).1, (A1_keep _).2.1, (A1_keep _).2.2.1, (A1_keep _).2.2.2.1, (A1_keep _).2.2.2.2]
  rfl

/-! ## The run -/

set_option maxRecDepth 8192 in
set_option maxHeartbeats 39200000 in
/-- From any memory with zero counters every weakly fair execution of the reference's @main terminates with the
    result buffer at `gcn` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = Cert.Gcn.gcn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (after_v65 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq ValueP.scopedRefs_eq ValueP.scopedSems_eq defs main (fun _ => ValueP.ops) ValueP.main_eq (fun _ => ValueP.ops_sub) m ρ)

end Cert.ReferenceIdeal.Chain

end
-- ==== Proof.lean ====
/-
  A two-layer graph convolution, kernel against reference, over the extended reals.

  Both programs compute `gcn x e w1 b1 w2 b2` (Proof/Spec.lean): with the edges' end points `src e`, `dst e` and the
  symmetric normalisation `norm e` = `deg^(-1/2)` at the source times `deg^(-1/2)` at the target,
      h1 = x · w1,    a1 = propagate h1,    h2 = max (a1 + b1, 0) · w2,    a2 = propagate h2,
      result = log_softmax (a2 + b2) row by row,
  where `propagate h` adds, for every edge, row `src` of `h` times the edge's `norm` into row `dst` of a zero array.

  The kernel program runs the three dense stages as three gridded regions (blocks of 2000, 2000 and 5000 rows: a
  matrix product into a zero accumulator; bias, `max (·, 0)` and a matrix product; bias, row maximum, shift, exponential,
  row sum, logarithm, shift) and the two propagation steps as host operations between them; the reference runs every
  stage as a host operation. At the extended reals a change of float format is the identity, a matrix product into
  a zero accumulator is the plain sum over the contracted axis, block by block the same sum as over the whole array,
  the row maximum taken from `-∞` is unchanged by one more maximum with `-∞`, and a row sum from `0` is the plain sum:
  so each region leaves exactly the reference's stage of the arrays it reads (Proof/Region0.lean, Region1.lean,
  Region2.lean), the host operations between the regions are the reference's own (Proof/HostChain.lean), and the
  reference's 98 operations compose to the same function (Proof/RefChain.lean). No step needs the inputs finite.

  The ideal pass rewrote nothing, so `preserves` is `True`. The three frames are the programs' runs with the results
  dropped.
-/
import proofs.«172581_j58557584114028_1_alg».proof.Defs
import proofs.«172581_j58557584114028_1_alg».proof.Proof.Gen.Kernel
import proofs.«172581_j58557584114028_1_alg».proof.Proof.Gen.Kernel.Skeleton
import proofs.«172581_j58557584114028_1_alg».proof.Proof.Gen.Kernel.Launch
import proofs.«172581_j58557584114028_1_alg».proof.Proof.Gen.Kernel.Points
import proofs.«172581_j58557584114028_1_alg».proof.Proof.Gen.Kernel.Frame
import proofs.«172581_j58557584114028_1_alg».proof.Proof.Gen.KernelIdeal
import proofs.«172581_j58557584114028_1_alg».proof.Proof.Gen.KernelIdeal.Skeleton
import proofs.«172581_j58557584114028_1_alg».proof.Proof.Gen.KernelIdeal.Launch
import proofs.«172581_j58557584114028_1_alg».proof.Proof.Gen.KernelIdeal.Points
import proofs.«172581_j58557584114028_1_alg».proof.Proof.Gen.KernelIdeal.Frame
import proofs.«172581_j58557584114028_1_alg».proof.Proof.Gen.ReferenceIdeal
import proofs.«172581_j58557584114028_1_alg».proof.Proof.Gen.Pre_finite_inputs
import proofs.«172581_j58557584114028_1_alg».proof.Proof.KernelRun
import proofs.«172581_j58557584114028_1_alg».proof.Proof.KernelValue
import proofs.«172581_j58557584114028_1_alg».proof.Proof.RefChain
import Idealize.ShloMosaic.Adequacy
import Idealize.ShloMosaic.Init

noncomputable section

namespace Cert.Proof

open Idealize.ShloMosaic Idealize.SL.Sem

/-- The word-level kernel runs, nothing faulting, its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Chain.run (F := Ideal) m ρ)

/-- The ideal pass rewrote no operation. -/
theorem preserves : Cert.preserves_Kernel_KernelIdeal := trivial

/-- From memories that agree on the six arguments both programs end with `gcn` of them in their result buffer. -/
theorem algebraic : Cert.algebraic_KernelIdeal_ReferenceIdeal := by
  intro m ρ m' ρ' _ hagree
  refine ⟨fun c => Cert.Gcn.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.W8_value m ρ c), (h c).2⟩)
      (Cert.KernelIdeal.GenP.run_last (F := Ideal) m ρ)
  · refine (θ_run Cert.ReferenceIdeal.defs _ _).mono (fun _ h c => ⟨(h c).1.trans ?_, (h c).2⟩)
      (Cert.ReferenceIdeal.Chain.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
